-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096 : Shape := ⟨2, ![8, 4096]⟩
abbrev S8x512x3 : Shape := ⟨3, ![8, 512, 3]⟩
abbrev S8x512 : Shape := ⟨2, ![8, 512]⟩
abbrev S8x512x512 : Shape := ⟨3, ![8, 512, 512]⟩
abbrev S8x512x1 : Shape := ⟨3, ![8, 512, 1]⟩
abbrev S8x1x512 : Shape := ⟨3, ![8, 1, 512]⟩
abbrev S1x1 : Shape := ⟨2, ![1, 1]⟩
abbrev S8 : Shape := ⟨1, ![8]⟩
abbrev S8x1 : Shape := ⟨2, ![8, 1]⟩
abbrev S1 : Shape := ⟨1, ![1]⟩
abbrev S_ : Shape := ⟨0, ![]⟩

abbrev nBuf : Space → Nat
  | .hbm => 6
  | .vmem => 15
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S1x1, .f32⟩
  | .hbm, ⟨5, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x512x3, .f32⟩
  | .local _ .vmem, ⟨3, _⟩ => ⟨S8x512x3, .f32⟩
  | .local _ .vmem, ⟨4, _⟩ => ⟨S8x512, .f32⟩
  | .local _ .vmem, ⟨5, _⟩ => ⟨S8x512, .f32⟩
  | .local _ .vmem, ⟨6, _⟩ => ⟨S8x512x3, .f32⟩
  | .local _ .vmem, ⟨7, _⟩ => ⟨S8x512x3, .f32⟩
  | .local _ .vmem, ⟨8, _⟩ => ⟨S8x512x3, .f32⟩
  | .local _ .vmem, ⟨9, _⟩ => ⟨S8x512x3, .f32⟩
  | .local _ .vmem, ⟨10, _⟩ => ⟨S8x512, .f32⟩
  | .local _ .vmem, ⟨11, _⟩ => ⟨S8x512, .f32⟩
  | .local _ .vmem, ⟨12, _⟩ => ⟨S8x4096, .f32⟩
  | .local _ .vmem, ⟨13, _⟩ => ⟨S8x4096, .f32⟩
  | .local _ .vmem, ⟨14, _⟩ => ⟨S1x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem2_0 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S8x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S8x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S8x512_S8x512_0_0 : ∀ a, (![0, 0] : Fin 2 → Nat) a + S8x512.size a ≤ S8x512.size a
  h_S8x512 : 0 < S8x512.numel
  inb_S8x512x3_S8x512x3_0_0_0 : ∀ a, (![0, 0, 0] : Fin 3 → Nat) a + S8x512x3.size a ≤ S8x512x3.size a
  h_S8x512x3 : 0 < S8x512x3.numel
  reduces_S8x512x3_S8x512 : S8x512x3.Reduces [2] S8x512
  bitsLt_bf16_f32 : FTy.bits .bf16 < FTy.bits .f32
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  shapeCasts_S8x512_S8x512 : S8x512.ShapeCasts S8x512
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  reduces_S8x4096_S8 : S8x4096.Reduces [1] S8
  shapeCasts_S8_S8x1 : S8.ShapeCasts S8x1
  reduces_S8x1_S1 : S8x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S8x512x3_S8x512x3_S8x512x512_2_2_1_1_0_0_wf : DotDims.WF S8x512x3 S8x512x3 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S8x4096x3.size a
  hwx0_0 : ∀ i : grid0.Coords, EltTy.bits .f32 = 32 ∨ (Rect.block (s := S8x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x3.size a ≤ S8x4096x3.size a
  hwx0_1 : ∀ i : grid0.Coords, EltTy.bits .f32 = 32 ∨ (Rect.block (s := S8x4096x3) S8x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x3.size a ≤ S8x4096x3.size a
  hwx1_0 : ∀ i : grid1.Coords, EltTy.bits .f32 = 32 ∨ (Rect.block (s := S8x4096x3) S8x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x3.size a ≤ S8x4096x3.size a
  hwx1_1 : ∀ i : grid1.Coords, EltTy.bits .f32 = 32 ∨ (Rect.block (s := S8x4096x3) S8x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x4096.size a
  hwx1_2 : ∀ i : grid1.Coords, EltTy.bits .f32 = 32 ∨ (Rect.block (s := S8x4096) S8x512.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8x4096.size a ≤ S8x4096.size a
  hwx2_0 : ∀ i : grid2.Coords, EltTy.bits .f32 = 32 ∨ (Rect.block (s := S8x4096) S8x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x4096.size a ≤ S8x4096.size a
  hwx2_1 : ∀ i : grid2.Coords, EltTy.bits .f32 = 32 ∨ (Rect.block (s := S8x4096) S8x4096.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S8x512x3_S8x512x3_S8x512x512_2_2_1_1_0_0 : DotDims S8x512x3 S8x512x3 S8x512x512 where
  lhsContracting := [2]
  rhsContracting := [2]
  lhsNonContracting := [1]
  rhsNonContracting := [1]
  lhsBatch := [0]
  rhsBatch := [0]
  wf := dot_S8x512x3_S8x512x3_S8x512x512_2_2_1_1_0_0_wf

abbrev win0_0 : Pipeline.Window sig grid0 :=
  Pipeline.Window.ofSpec (Memref.whole main_arg0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S8x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Spec.lean ====
/-
  The mathematics of the symmetric nearest-neighbour (Hausdorff-type) loss on two clouds of 4096 points in
  dimension 3, for 8 batches, over the extended reals.

  For points p, q the squared distance is written the way both programs compute it,
      d(p, q) = (|p|² + |q|²) - 2 · (p · q),
  with |p|² and p · q sums over the three coordinates. The value is
      ∑_b max ( max_n min_m d(x[b,n], y[b,m]) , max_m min_n d(x[b,n], y[b,m]) ).

  Two facts carry the comparison of a tiled computation with the plain one:
    * a minimum taken tile by tile (tiles of 512 consecutive points), carried from +∞ and updated with each
      tile's minimum, is after the last tile the minimum over all points (`runmin_zero`, `runmin_step`,
      `runmin_eight`);
    * d is symmetric under swapping the two clouds (`dist_swap`), by commutativity of + and · alone, so no
      finiteness of the entries is needed anywhere.
-/
import Idealize.ShloMosaic.PureOps.Ideal
import Idealize.ShloMosaic.PureOps.Ideal.Laws
import Idealize.ShloMosaic.Lib.ValueIdx

noncomputable section

namespace Hausdorff

open Idealize.ShloMosaic Idealize.ShloMosaic.ValueIdx

/-- A cloud of `N` points in dimension 3 for each of 8 batches, entries extended reals. -/
abbrev Pts (N : Nat) := (⟨3, ![8, N, 3]⟩ : Shape).Idx → EReal

/-- The float word of `2.0`, read as an extended real (never evaluated: both programs carry the same word). -/
abbrev two : EReal := Ideal.ofBits .f32 0x40000000#32

/-- `|x[b,n]|²`: the sum of the squares of the three coordinates. -/
def sq {N : Nat} (x : Pts N) (b : Fin 8) (n : Fin N) : EReal := ∑ k : Fin 3, x (ix3 b n k) * x (ix3 b n k)

/-- `x[b,n] · y[b,m]`: the sum of the products of the coordinates. -/
def dot {N M : Nat} (x : Pts N) (y : Pts M) (b : Fin 8) (n : Fin N) (m : Fin M) : EReal :=
  ∑ k : Fin 3, x (ix3 b n k) * y (ix3 b m k)

/-- The squared distance as both programs spell it: `(|x[b,n]|² + |y[b,m]|²) - 2 · (x[b,n] · y[b,m])`. -/
def dist {N M : Nat} (x : Pts N) (y : Pts M) (b : Fin 8) (n : Fin N) (m : Fin M) : EReal :=
  (sq x b n + sq y b m) - two * dot x y b n m

/-- Swapping the clouds (and the two point indices) does not change the squared distance: commutativity of
    `+` and `·` on the extended reals. -/
theorem dist_swap {N M : Nat} (x : Pts N) (y : Pts M) (b : Fin 8) (n : Fin N) (m : Fin M) :
    dist y x b m n = dist x y b n m := by
  unfold dist dot
  rw [add_comm (sq y b m) (sq x b n)]
  congr 2
  exact Finset.sum_congr rfl fun k _ => mul_comm _ _

/-- The distance from `x[b,n]` to its nearest point of `y[b,·]`. -/
def nearest {N M : Nat} (x : Pts N) (y : Pts M) (b : Fin 8) (n : Fin N) : EReal :=
  Finset.univ.inf fun m : Fin M => dist x y b n m

/-- The value: per batch the larger of the two directed farthest-nearest distances, summed over the batches. -/
def value (x y : Pts 4096) : EReal :=
  ∑ b : Fin 8, max (Finset.univ.sup fun n : Fin 4096 => nearest x y b n)
    (Finset.univ.sup fun m : Fin 4096 => Finset.univ.inf fun n : Fin 4096 => dist x y b n m)

/-- The farthest-nearest value of two arrays of distances: per batch the larger of the two maxima, summed. -/
def farthest (d1 d2 : (⟨2, ![8, 4096]⟩ : Shape).Idx → EReal) : EReal :=
  ∑ b : Fin 8, max (Finset.univ.sup fun n : Fin 4096 => d1 (ix2 b n)) (Finset.univ.sup fun n : Fin 4096 => d2 (ix2 b n))

/-- Of the two directed arrays of nearest distances — the second computed with the clouds swapped — it is the value. -/
theorem farthest_nearest (x y : Pts 4096) :
    farthest (fun i => nearest x y (i 0) (i 1)) (fun i => nearest y x (i 0) (i 1)) = value x y := by
  unfold farthest value
  refine Finset.sum_congr rfl fun b _ => ?_
  refine congrArg₂ max rfl ?_
  refine Finset.sup_congr rfl fun m _ => ?_
  show nearest y x b m = _
  unfold nearest
  exact Finset.inf_congr rfl fun n _ => dist_swap x y b n m

/-! ## A minimum carried tile by tile -/

/-- The minimum of `f` over the first `J` tiles of 512 points. -/
def runmin (f : Fin 4096 → EReal) (J : Nat) : EReal :=
  (Finset.univ.filter fun m : Fin 4096 => m.val < 512 * J).inf f

theorem runmin_zero (f : Fin 4096 → EReal) : runmin f 0 = ⊤ := by
  unfold runmin
  rw [Finset.filter_false_of_mem (fun m _ => by omega), Finset.inf_empty]

/-- The minimum of `f` over tile `n % 8` alone. -/
def tilemin (f : Fin 4096 → EReal) (n : Nat) : EReal :=
  Finset.univ.inf fun q : Fin 512 => f ⟨512 * (n % 8) + q.val, by have := q.isLt; omega⟩

/-- Taking in tile `n % 8`: the carried minimum and the tile's own. -/
theorem runmin_step (f : Fin 4096 → EReal) (n : Nat) :
    runmin f (n % 8 + 1) = min (runmin f (n % 8)) (tilemin f n) :=
  eq_of_forall_le_iff fun c => by
    unfold runmin tilemin
    rw [le_min_iff, Finset.le_inf_iff, Finset.le_inf_iff, Finset.le_inf_iff]
    constructor
    · intro h
      refine ⟨fun m hm => h m ?_, fun q _ => h _ ?_⟩
      · rw [Finset.mem_filter] at hm ⊢; exact ⟨hm.1, by omega⟩
      · rw [Finset.mem_filter]; exact ⟨Finset.mem_univ _, by show 512 * (n % 8) + q.val < 512 * (n % 8 + 1); have := q.isLt; omega⟩
    · rintro ⟨h1, h2⟩ m hm
      rw [Finset.mem_filter] at hm
      by_cases hlt : m.val < 512 * (n % 8)
      · exact h1 m (Finset.mem_filter.mpr ⟨Finset.mem_univ _, hlt⟩)
      · have := h2 ⟨m.val - 512 * (n % 8), by omega⟩ (Finset.mem_univ _)
        have e : (⟨512 * (n % 8) + (m.val - 512 * (n % 8)), by omega⟩ : Fin 4096) = m :=
          Fin.ext (by show 512 * (n % 8) + (m.val - 512 * (n % 8)) = m.val; omega)
        rw [e] at this
        exact this

/-- After the eighth tile the carried minimum is the minimum over all 4096 points. -/
theorem runmin_eight (f : Fin 4096 → EReal) : runmin f 8 = Finset.univ.inf f := by
  unfold runmin
  rw [Finset.filter_true_of_mem (fun m _ => by have := m.isLt; omega)]

end Hausdorff

end
-- ==== Proof.LibOuterMinMax.lean ====
/-
  General lemmas, for any extents and any element type unless said otherwise.

  * The outer layout of two families of row vectors: for `x : [n, a]` and `y : [n, b]`, the array `x[:, :, None]`
    (a cast to `[n, a, 1]`, then a broadcast to `[n, a, b]`) read at `(i, p, q)` is `x` at `(i, p)`
    (`outerCol_apply`), and `y[:, None, :]` (a cast to `[n, 1, b]`, then a broadcast) read there is `y` at `(i, q)`
    (`outerRow_apply`). A vector `[a]` cast to a column `[a, 1]` read at `(p, u)` is the vector at `p` (`castCol_apply`).
  * At the extended reals, a fold of `min` from `+∞` over a finite set is the set's infimum and a fold of `max` from
    `-∞` its supremum (`fold_min_top`, `fold_max_bot`): both sides have the same lower (upper) bounds. The float words
    of the two infinities are `⊤` and `⊥` (`ofBits_posInf`, `ofBits_negInf`).
  * So a vector `multi_reduction <minimumf>` from `+∞` along ONE axis, read at a result index, is the infimum over
    that axis's coordinates of the source at the index with the coordinate inserted, and a `<maximumf>` one from
    `-∞` the supremum (`multiReduction_minimumf_inf`, `multiReduction_maximumf_sup`); the host's one-operand reduce
    with a `minimum` (`maximum`) body from a `+∞` (`-∞`) initial value likewise (`hostReduce_minimumf_inf`,
    `hostReduce_maximumf_sup`).
-/
import Idealize.ShloMosaic.Lib.Pipeline.Value
import Idealize.ShloMosaic.Lib.ValueIdx
import Idealize.ShloMosaic.PureOps.Reduce
import Idealize.ShloMosaic.PureOps.Ideal.Laws

noncomputable section

namespace LibOuterMinMax

open Idealize.ShloMosaic Idealize.ShloMosaic.ValueIdx

variable {α : Type}

/-! ## The outer layout -/

/-- `x[:, :, None]` broadcast along a new last axis, read at `(i, p, q)`, is `x` at `(i, p)`. -/
theorem outerCol_apply {n a b : ℕ} (x : (⟨2, ![n, a]⟩ : Shape).Idx → α)
    (h1 : (⟨2, ![n, a]⟩ : Shape).ShapeCasts ⟨3, ![n, a, 1]⟩) (h2 : (⟨3, ![n, a, 1]⟩ : Shape).Broadcasts ⟨3, ![n, a, b]⟩)
    (i : Fin n) (p : Fin a) (q : Fin b) :
    broadcastTo ⟨3, ![n, a, b]⟩ (shapeCast ⟨3, ![n, a, 1]⟩ x h1) h2 (ix3 i p q) = x (ix2 i p) :=
  (broadcastTo_apply _ h2 (ix3 i p q) (ix3 i p (0 : Fin 1)) (fun d => by
    match d with
    | ⟨0, _⟩ =>
      show i.val = if n = 1 then 0 else i.val
      split
      · have := i.isLt; omega
      · rfl
    | ⟨1, _⟩ =>
      show p.val = if a = 1 then 0 else p.val
      split
      · have := p.isLt; omega
      · rfl
    | ⟨2, _⟩ => rfl)).trans
  (shapeCast_apply x h1 (ix3 i p (0 : Fin 1)) (ix2 i p) (by
    rw [Shape.rowMajor_val_three, Shape.rowMajor_val_two]
    show i.val * a + p.val = (i.val * a + p.val) * 1 + 0
    omega))

/-- `y[:, None, :]` broadcast along a new middle axis, read at `(i, p, q)`, is `y` at `(i, q)`. -/
theorem outerRow_apply {n a b : ℕ} (y : (⟨2, ![n, b]⟩ : Shape).Idx → α)
    (h1 : (⟨2, ![n, b]⟩ : Shape).ShapeCasts ⟨3, ![n, 1, b]⟩) (h2 : (⟨3, ![n, 1, b]⟩ : Shape).Broadcasts ⟨3, ![n, a, b]⟩)
    (i : Fin n) (p : Fin a) (q : Fin b) :
    broadcastTo ⟨3, ![n, a, b]⟩ (shapeCast ⟨3, ![n, 1, b]⟩ y h1) h2 (ix3 i p q) = y (ix2 i q) :=
  (broadcastTo_apply _ h2 (ix3 i p q) (ix3 i (0 : Fin 1) q) (fun d => by
    match d with
    | ⟨0, _⟩ =>
      show i.val = if n = 1 then 0 else i.val
      split
      · have := i.isLt; omega
      · rfl
    | ⟨1, _⟩ => rfl
    | ⟨2, _⟩ =>
      show q.val = if b = 1 then 0 else q.val
      split
      · have := q.isLt; omega
      · rfl)).trans
  (shapeCast_apply y h1 (ix3 i (0 : Fin 1) q) (ix2 i q) (by
    rw [Shape.rowMajor_val_three, Shape.rowMajor_val_two]
    show i.val * b + q.val = (i.val * 1 + 0) * b + q.val
    rw [Nat.mul_one, Nat.add_zero]))

/-- A vector `[a]` cast to a column `[a, 1]`, read at `(p, u)`, is the vector at `p`. -/
theorem castCol_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h (ix2 p u) (ix1 p) (by
    have hu : u.val = 0 := by omega
    rw [Shape.rowMajor_val_one, Shape.rowMajor_val_two]
    show p.val = p.val * 1 + u.val
    rw [hu, Nat.mul_one, Nat.add_zero])

/-! ## Folds of `min` and `max` over the extended reals -/

theorem fold_min_top {ι : Type*} (s : Finset ι) (f : ι → EReal) : s.fold min ⊤ f = s.inf f :=
  eq_of_forall_le_iff fun c => by
    rw [Finset.le_fold_min, Finset.le_inf_iff]
    exact ⟨fun h => h.2, fun h => ⟨le_top, h⟩⟩

theorem fold_max_bot {ι : Type*} (s : Finset ι) (f : ι → EReal) : s.fold max ⊥ f = s.sup f :=
  eq_of_forall_ge_iff fun c => by
    rw [Finset.fold_max_le, Finset.sup_le_iff]
    exact ⟨fun h => h.2, fun h => ⟨bot_le, h⟩⟩

theorem ofBits_posInf : Ideal.ofBits .f32 0x7F800000#32 = (⊤ : EReal) := by
  simp [Ideal.ofBits, Ideal.ieee]

theorem ofBits_negInf : Ideal.ofBits .f32 0xFF800000#32 = (⊥ : EReal) := by
  simp [Ideal.ofBits, Ideal.ieee]

/-! ## One-axis minimum and maximum reductions as infimum and supremum -/

/-- A vector `multi_reduction <minimumf>` from `+∞` along one axis at a result index: the infimum over the axis. -/
theorem multiReduction_minimumf_inf {s t : Shape} {a : Fin s.rank} (src : FVec Ideal s .f32)
    (h : s.Reduces [a] t) (hφ : FKind.Formats .f32) (hacc : (0x7F800000#32 : BitVec 32) = FKind.minimumf.neutral .f32 hφ) (j : t.Idx) :
    multiReduction .minimumf [a] t src 0x7F800000#32 h hφ hacc j
      = (Finset.univ : Finset (Fin (s.size a))).inf fun k => src (h.lift j k) := by
  rw [multiReduction_minimumf_eq_fold]
  refine (h.fold_filter_drop_single _ _ src j).trans ?_
  show Finset.fold min (Ideal.ofBits .f32 0x7F800000#32) (src ∘ h.lift j) Finset.univ = _
  rw [ofBits_posInf, fold_min_top]
  rfl

/-- A vector `multi_reduction <maximumf>` from `-∞` along one axis at a result index: the supremum over the axis. -/
theorem multiReduction_maximumf_sup {s t : Shape} {a : Fin s.rank} (src : FVec Ideal s .f32)
    (h : s.Reduces [a] t) (hφ : FKind.Formats .f32) (hacc : (0xFF800000#32 : BitVec 32) = FKind.maximumf.neutral .f32 hφ) (j : t.Idx) :
    multiReduction .maximumf [a] t src 0xFF800000#32 h hφ hacc j
      = (Finset.univ : Finset (Fin (s.size a))).sup fun k => src (h.lift j k) := by
  rw [Ideal.multiReduction_maximumf_single]
  show Finset.fold max (Ideal.ofBits .f32 0xFF800000#32) (src ∘ h.lift j) Finset.univ = _
  rw [ofBits_negInf, fold_max_bot]
  rfl

/-- The host's one-operand reduce with a `minimum` body from `+∞` along one axis: the infimum over the axis. -/
theorem hostReduce_minimumf_inf {s t u : Shape} {a : Fin s.rank} (x : s.Idx → EReal) (init : u.Idx → EReal)
    (h' : s.ReducesTo [a] t) (h : s.Reduces [a] t) (hu : 0 < u.numel) (hinit : init (Shape.Idx.first hu) = ⊤) (j : t.Idx) :
    Host.reduce (FloatOps.minimumf (F := Ideal) (φ := .f32)) x init h' hu j
      = (Finset.univ : Finset (Fin (s.size a))).inf fun k => x (h.lift j k) := by
  rw [Host.reduce_eq_fold_single _ x init h' h hu j, hinit]
  show Finset.fold min ⊤ (x ∘ h.lift j) Finset.univ = _
  rw [fold_min_top]
  rfl

/-- The host's one-operand reduce with a `maximum` body from `-∞` along one axis: the supremum over the axis. -/
theorem hostReduce_maximumf_sup {s t u : Shape} {a : Fin s.rank} (x : s.Idx → EReal) (init : u.Idx → EReal)
    (h' : s.ReducesTo [a] t) (h : s.Reduces [a] t) (hu : 0 < u.numel) (hinit : init (Shape.Idx.first hu) = ⊥) (j : t.Idx) :
    Host.reduce (FloatOps.maximumf (F := Ideal) (φ := .f32)) x init h' hu j
      = (Finset.univ : Finset (Fin (s.size a))).sup fun k => x (h.lift j k) := by
  rw [Host.reduce_eq_fold_single _ x init h' h hu j, hinit]
  show Finset.fold max ⊥ (x ∘ h.lift j) Finset.univ = _
  rw [fold_max_bot]
  rfl

end LibOuterMinMax

end
-- ==== Proof.NnBody.lean ====
/-
  The arithmetic of one grid point of the nearest-neighbour kernel, read at an index.

  The body holds a block `x0` of 512 query points and a block `x1` of 512 key points (for each of the 8 batches) and the
  running minimum `prev` kept so far for the queries. It forms, for every query `p` and key `q` of the two blocks,
      (|x0[b,p]|² + |x1[b,q]|²) - 2 · (x0[b,p] · x1[b,q]),
  the squared norms as sums over the three coordinates, the inner products by one batched matrix product (whose
  narrowing of the operands to a shorter float format is the identity on extended reals), takes the minimum over `q`,
  and leaves the smaller of that and `prev`. So at `(b, p)` it leaves
      min (prev[b,p]) (inf over q of dist x0 x1 b p q).
-/
import proofs.«147394_j61194694033712_1_alg».proof.Proof.Gen.KernelIdeal.Skeleton
import proofs.«147394_j61194694033712_1_alg».proof.Proof.Spec
import proofs.«147394_j61194694033712_1_alg».proof.Proof.LibOuterMinMax

noncomputable section

namespace Cert.KernelIdeal.NnBody

open Cert.KernelIdeal Cert.KernelIdeal.Gen Idealize.ShloMosaic Idealize.ShloMosaic.ValueIdx Hausdorff LibOuterMinMax

/-! ## The reductions' inserted indices -/

/-- Summing out the coordinate axis of a `[8, 512, 3]` block at `(b, p)`: coordinate `k` sits at `(b, p, k)`. -/
theorem lift_coord (h : S8x512x3.Reduces [2] S8x512) (b : Fin 8) (p : Fin 512) (k : Fin 3) :
    h.lift (ix2 b p) k = ix3 b p k :=
  funext fun a => Fin.ext (by match a with | ⟨0, _⟩ => rfl | ⟨1, _⟩ => rfl | ⟨2, _⟩ => rfl)

/-- Minimising out the key axis of a `[8, 512, 512]` tile at `(b, p)`: key `q` sits at `(b, p, q)`. -/
theorem lift_key (h : S8x512x512.Reduces [2] S8x512) (b : Fin 8) (p : Fin 512) (q : Fin 512) :
    h.lift (ix2 b p) q = ix3 b p q :=
  funext fun a => Fin.ext (by match a with | ⟨0, _⟩ => rfl | ⟨1, _⟩ => rfl | ⟨2, _⟩ => rfl)

/-- A block's sum along the coordinate axis, at `(b, p)`. -/
theorem rowsum_apply (v : FVec Ideal S8x512x3 .f32) (h : S8x512x3.Reduces [2] S8x512) (hφ : FKind.Formats .f32)
    (hacc : (0x00000000#32 : BitVec 32) = FKind.add.neutral .f32 hφ) (b : Fin 8) (p : Fin 512) :
    multiReduction .add [2] S8x512 v 0x00000000#32 h hφ hacc (ix2 b p) = ∑ k : Fin 3, v (ix3 b p k) :=
  (Ideal.multiReduction_add_single v _ h hφ hacc (ix2 b p)).trans
    (Finset.sum_congr rfl fun k _ => congrArg v (lift_coord h b p k))

/-! ## The batched product of the two blocks -/

theorem lhs_0 (i : S8x512x512.Idx) (q : dot_S8x512x3_S8x512x3_S8x512x512_2_2_1_1_0_0.contr.Idx) :
    (dot_S8x512x3_S8x512x3_S8x512x512_2_2_1_1_0_0.lhsIdx i q 0).val = (i 0).val := by
  unfold DotDims.lhsIdx
  rw [dif_pos (show (0 : Fin S8x512x3.rank) ∈ dot_S8x512x3_S8x512x3_S8x512x512_2_2_1_1_0_0.lhsBatch by decide)]
  rfl
theorem lhs_1 (i : S8x512x512.Idx) (q : dot_S8x512x3_S8x512x3_S8x512x512_2_2_1_1_0_0.contr.Idx) :
    (dot_S8x512x3_S8x512x3_S8x512x512_2_2_1_1_0_0.lhsIdx i q 1).val = (i 1).val := by
  unfold DotDims.lhsIdx
  rw [dif_neg (show ¬(1 : Fin S8x512x3.rank) ∈ dot_S8x512x3_S8x512x3_S8x512x512_2_2_1_1_0_0.lhsBatch by decide), dif_pos (show (1 : Fin S8x512x3.rank) ∈ dot_S8x512x3_S8x512x3_S8x512x512_2_2_1_1_0_0.lhsNonContracting by decide)]
  rfl
theorem lhs_2 (i : S8x512x512.Idx) (q : dot_S8x512x3_S8x512x3_S8x512x512_2_2_1_1_0_0.contr.Idx) :
    (dot_S8x512x3_S8x512x3_S8x512x512_2_2_1_1_0_0.lhsIdx i q 2).val = (q ⟨0, by decide⟩).val :=
  dot_S8x512x3_S8x512x3_S8x512x512_2_2_1_1_0_0.lhsIdx_val_of_single rfl i q
theorem rhs_0 (i : S8x512x512.Idx) (q : dot_S8x512x3_S8x512x3_S8x512x512_2_2_1_1_0_0.contr.Idx) :
    (dot_S8x512x3_S8x512x3_S8x512x512_2_2_1_1_0_0.rhsIdx i q 0).val = (i 0).val := by
  unfold DotDims.rhsIdx
  rw [dif_pos (show (0 : Fin S8x512x3.rank) ∈ dot_S8x512x3_S8x512x3_S8x512x512_2_2_1_1_0_0.rhsBatch by decide)]
  rfl
theorem rhs_1 (i : S8x512x512.Idx) (q : dot_S8x512x3_S8x512x3_S8x512x512_2_2_1_1_0_0.contr.Idx) :
    (dot_S8x512x3_S8x512x3_S8x512x512_2_2_1_1_0_0.rhsIdx i q 1).val = (i 2).val := by
  unfold DotDims.rhsIdx
  rw [dif_neg (show ¬(1 : Fin S8x512x3.rank) ∈ dot_S8x512x3_S8x512x3_S8x512x512_2_2_1_1_0_0.rhsBatch by decide), dif_pos (show (1 : Fin S8x512x3.rank) ∈ dot_S8x512x3_S8x512x3_S8x512x512_2_2_1_1_0_0.rhsNonContracting by decide)]
  rfl
theorem rhs_2 (i : S8x512x512.Idx) (q : dot_S8x512x3_S8x512x3_S8x512x512_2_2_1_1_0_0.contr.Idx) :
    (dot_S8x512x3_S8x512x3_S8x512x512_2_2_1_1_0_0.rhsIdx i q 2).val = (q ⟨0, by decide⟩).val :=
  dot_S8x512x3_S8x512x3_S8x512x512_2_2_1_1_0_0.rhsIdx_val_of_single rfl i q

/-- The batched product into the zero accumulator, at `(b, p, q)`: the inner product of row `p` of the left block and
    row `q` of the right block of batch `b`. -/
theorem batchdot_apply (l r : FVec Ideal S8x512x3 .bf16) (b : Fin 8) (p q : Fin 512) :
    matmul dot_S8x512x3_S8x512x3_S8x512x512_2_2_1_1_0_0 none l r (constant (F := Ideal) S8x512x512 .f32 0x00000000#32) (ix3 b p q)
      = ∑ k : Fin 3, l (ix3 b p k) * r (ix3 b q k) := by
  simp only [matmul]
  rw [Ideal.matmul_constant_zero_apply, ← Equiv.sum_comp (ValueIdx.contrEquiv1 dot_S8x512x3_S8x512x3_S8x512x512_2_2_1_1_0_0 3 rfl rfl).symm]
  refine Finset.sum_congr rfl fun k _ => ?_
  have hk := ValueIdx.contrEquiv1_symm_val dot_S8x512x3_S8x512x3_S8x512x512_2_2_1_1_0_0 3 rfl rfl k
  have el : dot_S8x512x3_S8x512x3_S8x512x512_2_2_1_1_0_0.lhsIdx (ix3 b p q) ((ValueIdx.contrEquiv1 dot_S8x512x3_S8x512x3_S8x512x512_2_2_1_1_0_0 3 rfl rfl).symm k) = ix3 b p k := funext fun a => Fin.ext (by
    match a with
    | ⟨0, _⟩ => exact lhs_0 _ _
    | ⟨1, _⟩ => exact lhs_1 _ _
    | ⟨2, _⟩ => exact (lhs_2 _ _).trans hk)
  have er : dot_S8x512x3_S8x512x3_S8x512x512_2_2_1_1_0_0.rhsIdx (ix3 b p q) ((ValueIdx.contrEquiv1 dot_S8x512x3_S8x512x3_S8x512x512_2_2_1_1_0_0 3 rfl rfl).symm k) = ix3 b q k := funext fun a => Fin.ext (by
    match a with
    | ⟨0, _⟩ => exact rhs_0 _ _
    | ⟨1, _⟩ => exact rhs_1 _ _
    | ⟨2, _⟩ => exact (rhs_2 _ _).trans hk)
  rw [el, er]

/-! ## The payload -/

/-- What one grid point leaves at `(b, p)`: the smaller of the running minimum there and the least squared distance
    from query `p` to the 512 keys of the point's key block. -/
theorem pay2_apply_0 (x0 x1 : Vec Ideal S8x512x3 .f32) (prev : Vec Ideal S8x512 .f32) (b : Fin 8) (p : Fin 512) :
    k0_pay2 (F := Ideal) x0 x1 prev (ix2 b p)
      = min (prev (ix2 b p)) (Finset.univ.inf fun q : Fin 512 => Hausdorff.dist x0 x1 b p q) := by
  unfold k0_pay2
  dsimp only
  rw [minimumf_apply, shapeCast_self]
  refine congrArg (min _) ?_
  refine (multiReduction_minimumf_inf _ _ _ _ (ix2 b p)).trans ?_
  refine Finset.inf_congr rfl fun (q : Fin 512) _ => ?_
  rw [lift_key _ b p q]
  show (broadcastTo S8x512x512 (shapeCast S8x512x1 _ _) _ (ix3 b p q) + broadcastTo S8x512x512 (shapeCast S8x1x512 _ _) _ (ix3 b p q))
      - (Ideal.ofBits .f32 0x40000000#32 * matmul _ none _ _ _ (ix3 b p q)) = _
  rw [outerCol_apply, outerRow_apply, batchdot_apply]
  unfold Hausdorff.dist
  refine congrArg₂ (· - ·) (congrArg₂ (· + ·) ?_ ?_) ?_
  · exact rowsum_apply (mulf x0 x0) _ _ _ b p
  · exact rowsum_apply (mulf x1 x1) _ _ _ b q
  · rfl

/-- The second pass runs the same body on its own blocks: its payload is the first pass's, term for term. -/
theorem pay2_apply_1 (x0 x1 : Vec Ideal S8x512x3 .f32) (prev : Vec Ideal S8x512 .f32) (b : Fin 8) (p : Fin 512) :
    k1_pay2 (F := Ideal) x0 x1 prev (ix2 b p)
      = min (prev (ix2 b p)) (Finset.univ.inf fun q : Fin 512 => Hausdorff.dist x0 x1 b p q) :=
  (congrFun (show k1_pay2 (F := Ideal) x0 x1 prev = k0_pay2 (F := Ideal) x0 x1 prev from rfl) (ix2 b p)).trans
    (pay2_apply_0 x0 x1 prev b p)

end Cert.KernelIdeal.NnBody

end
-- ==== Proof.Region0.lean ====
/-
  Region 0 of the program: the nearest-neighbour pass whose queries are `main_arg0` and whose keys are `main_arg1`,
  over a grid of 8 query tiles by 8 key tiles of 512 points, the key tile moving fastest.

  At a point `t` the query tile is `t / 8` and the key tile `t % 8`. The output block (one per query tile) is reset to
  `+∞` at the first key tile and then holds, after key tile `j`, for query `p` of the tile the least squared distance to
  the first `512 (j + 1)` keys (`inv`: by induction on the point, the step being the payload read at an index and
  `Hausdorff.runmin_step`). It is written back after the last key tile, when that is the least squared distance to all
  4096 keys; the eight written blocks tile the result array, which therefore ends holding, at `(b, n)`,
  `Hausdorff.nearest` of the two argument arrays as the region finds them (`final`).
-/
import proofs.«147394_j61194694033712_1_alg».proof.Proof.Gen.KernelIdeal.Frame
import proofs.«147394_j61194694033712_1_alg».proof.Proof.NnBody
import Idealize.ShloMosaic.Lib.Pipeline.Value
import Idealize.ShloMosaic.Lib.Tactic

set_option maxRecDepth 16384

noncomputable section

namespace Cert.KernelIdeal.Region0

open Cert.KernelIdeal Cert.KernelIdeal.Gen Cert.KernelIdeal.NnBody
open Idealize.ShloMosaic Idealize.ShloMosaic.TcCoe Idealize.SL.Sem Idealize.ShloMosaic.ValueIdx
open Idealize.ShloMosaic.Pipeline (Dat)
open Hausdorff LibOuterMinMax

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves in the output block -/

section Pieces
variable {F : FTy → Type} [FloatOps F]

/-- Away from the first key tile the body leaves the payload of the two input blocks over the block's running contents. -/
theorem out_B (c : Dev nD) (i : grid0.Coords) (a2 : Memref sig .tc .vmem S8x512x3 .f32) (h2 : a2.IsWhole)
    (a3 : Memref sig .tc .vmem S8x512x3 .f32) (h3 : a3.IsWhole) (a4 : Memref sig .tc .vmem S8x512 .f32) (h4 : a4.IsWhole)
    (hc : ¬cond0_0 i) (x0 x1 : Vec F S8x512x3 .f32) (xo : Vec F S8x512 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz2]
  simp only [View.readAt_eq_ld, h2.read_unread, h3.read_unread, h4.read_unread, View.ld_unit_zero (S := S8x512x3) hz3,
    View.ld_unit_zero (S := S8x512) hz2]

/-- At the first key tile the body first stores the `+∞` block, reads it back, and leaves the payload over it. -/
theorem out_A (c : Dev nD) (i : grid0.Coords) (a2 : Memref sig .tc .vmem S8x512x3 .f32) (h2 : a2.IsWhole)
    (a3 : Memref sig .tc .vmem S8x512x3 .f32) (h3 : a3.IsWhole) (a4 : Memref sig .tc .vmem S8x512 .f32) (h4 : a4.IsWhole)
    (hc : cond0_0 i) (x0 x1 : Vec F S8x512x3 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x512) hz2, View.readCov_unit_zero (S := S8x512) _ hz2]
  simp only [View.readAt_eq_ld, h2.read_unread, h3.read_unread, View.ld_unit_zero (S := S8x512x3) hz3,
    View.ld_unit_zero (S := S8x512) hz2]

end Pieces

/-! ## The blocks, read through their windows -/

variable (V : (c : Dev nD) → (b : Ref sig .tc) → Buf (Elt Ideal) ((c : Thread nD τ).loc b))

/-- The query and key blocks at a point and the two arrays they are cut from, at their literal types. -/
abbrev qblk (c : Dev nD) (t : Fin cfg0.N) : Vec Ideal S8x512x3 .f32 := iblk0 V c 0 t
abbrev kblk (c : Dev nD) (t : Fin cfg0.N) : Vec Ideal S8x512x3 .f32 := iblk0 V c 1 t
abbrev qarr (c : Dev nD) : Vec Ideal S8x4096x3 .f32 := V c main_arg0
abbrev karr (c : Dev nD) : Vec Ideal S8x4096x3 .f32 := V c main_arg1

/-- Row `p` of the query tile of point `n`, and row `q` of its key tile, as rows of the whole arrays. -/
def qrow (n : Nat) (p : Fin 512) : Fin 4096 := ⟨512 * (n / 8 % 8) + p.val, by have := p.isLt; omega⟩
def krow (n : Nat) (q : Fin 512) : Fin 4096 := ⟨512 * (n % 8) + q.val, by have := q.isLt; omega⟩

/-- The printed index maps over the grid: the query window and the output window sit at block `t / 8` of the point
    axis, the key window at block `t % 8`, and at block 0 of every other axis. -/
theorem idx_facts : ∀ t : Fin cfg0.N,
    win0_0.index t (0 : Fin 3) = 0 ∧ win0_0.index t (1 : Fin 3) = t.val / 8 % 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8 % 8 :=
  (by decide +kernel : ∀ t : Fin grid0.N, _)

theorem qblk_apply (c : Dev nD) (t : Fin cfg0.N) (b : Fin 8) (p : Fin 512) (k : Fin 3) :
    qblk V c t (ix3 b p k) = qarr V c (ix3 b (qrow t.val p) k) := by
  obtain ⟨e0, e1, e2, -⟩ := idx_facts t
  show V c main_arg0 (((cfg0.win 0).blk t).view.emb (ix3 b p k)) = V c main_arg0 (ix3 b (qrow t.val p) k)
  refine congrArg _ (funext fun a => Fin.ext ?_)
  match a with
  | ⟨0, _⟩ => show win0_0.index t (0 : Fin 3) * 8 + 1 * b.val = b.val; omega
  | ⟨1, _⟩ => show win0_0.index t (1 : Fin 3) * 512 + 1 * p.val = 512 * (t.val / 8 % 8) + p.val; omega
  | ⟨2, _⟩ => show win0_0.index t (2 : Fin 3) * 3 + 1 * k.val = k.val; omega

theorem kblk_apply (c : Dev nD) (t : Fin cfg0.N) (b : Fin 8) (q : Fin 512) (k : Fin 3) :
    kblk V c t (ix3 b q k) = karr V c (ix3 b (krow t.val q) k) := by
  obtain ⟨-, -, -, e0, e1, e2, -⟩ := idx_facts t
  show V c main_arg1 (((cfg0.win 1).blk t).view.emb (ix3 b q k)) = V c main_arg1 (ix3 b (krow t.val q) k)
  refine congrArg _ (funext fun a => Fin.ext ?_)
  match a with
  | ⟨0, _⟩ => show win0_1.index t (0 : Fin 3) * 8 + 1 * b.val = b.val; omega
  | ⟨1, _⟩ => show win0_1.index t (1 : Fin 3) * 512 + 1 * q.val = 512 * (t.val % 8) + q.val; omega
  | ⟨2, _⟩ => show win0_1.index t (2 : Fin 3) * 3 + 1 * k.val = k.val; omega

/-- The squared distance between a row of the query block and a row of the key block is the squared distance between
    the rows of the arrays they are. -/
theorem dist_blk (c : Dev nD) (t : Fin cfg0.N) (b : Fin 8) (p q : Fin 512) :
    Hausdorff.dist (qblk V c t) (kblk V c t) b p q = Hausdorff.dist (qarr V c) (karr V c) b (qrow t.val p) (krow t.val q) := by
  unfold Hausdorff.dist Hausdorff.sq Hausdorff.dot
  simp only [qblk_apply, kblk_apply]

/-! ## The running minimum -/

/-- The squared distances from query row `r` of batch `b` to every key. -/
abbrev toKeys (c : Dev nD) (b : Fin 8) (r : Fin 4096) : Fin 4096 → EReal := fun m => Hausdorff.dist (qarr V c) (karr V c) b r m

/-- The reset block holds `+∞`. -/
theorem pay1_apply (j : S8x512.Idx) : k0_pay1 (F := Ideal) j = (⊤ : EReal) := ofBits_posInf

/-- One point's step at `(b, p)`: the payload over a running minimum `prev` takes in the point's key tile. -/
theorem step_apply (c : Dev nD) (t : Fin cfg0.N) (prev : Vec Ideal S8x512 .f32) (b : Fin 8) (p : Fin 512) :
    k0_pay2 (F := Ideal) (qblk V c t) (kblk V c t) prev (ix2 b p)
      = min (prev (ix2 b p)) (tilemin (toKeys V c b (qrow t.val p)) t.val) := by
  refine (pay2_apply_0 (qblk V c t) (kblk V c t) prev b p).trans ?_
  refine congrArg (min _) (Finset.inf_congr rfl fun q _ => ?_)
  exact dist_blk V c t b p q

/-- After the body at point `n` the output block holds, at `(b, p)`, the least squared distance from the query row to
    the keys of the key tiles up to the point's own. -/
theorem inv (c : Dev nD) : ∀ (n : Nat) (h : n < cfg0.N) (b : Fin 8) (p : Fin 512),
    outsAt0 V c n h (ix2 b p) = runmin (toKeys V c b (qrow n p)) (n % 8 + 1)
  | 0, h, b, p => by
    rw [outsAt0_A V c ⟨0, h⟩ rfl, out_A]
    refine (step_apply V c ⟨0, h⟩ (k0_pay1 (F := Ideal)) b p).trans ?_
    rw [pay1_apply, runmin_step, Nat.zero_mod, runmin_zero]
  | n + 1, h, b, p => by
    by_cases h0 : (n + 1) % 8 = 0
    · rw [outsAt0_A V c ⟨n + 1, h⟩ h0, out_A]
      refine (step_apply V c ⟨n + 1, h⟩ (k0_pay1 (F := Ideal)) b p).trans ?_
      rw [pay1_apply, runmin_step, h0, runmin_zero]
    · rw [outsAt0_B V c ⟨n + 1, h⟩ h0, out_B]
      refine (step_apply V c ⟨n + 1, h⟩ (outsAt0 V c n (Nat.lt_of_succ_lt h)) b p).trans ?_
      rw [inv c n (Nat.lt_of_succ_lt h) b p]
      have hq : qrow n p = qrow (n + 1) p := Fin.ext (by show 512 * (n / 8 % 8) + p.val = 512 * ((n + 1) / 8 % 8) + p.val; omega)
      have hj : n % 8 + 1 = (n + 1) % 8 := by omega
      rw [hq, runmin_step _ (n + 1), hj]

/-! ## The result array -/

/-- What the result array ends holding: at `(b, n)` the least squared distance from query `n` to the keys. -/
abbrev result (c : Dev nD) : Vec Ideal S8x4096 .f32 := fun i => nearest (qarr V c) (karr V c) (i 0) (i 1)

/-- What a point writes back (it does so after the last key tile) is its block of `result`. -/
theorem flushed_eq (c : Dev nD) (t : Fin cfg0.N) (hf : (cfg0.win 2).flush t = true) :
    (dat0 V c).flushed 2 t = ((cfg0.win 2).blk t).view.read (Elt Ideal) (result V c) := by
  have h7 : t.val % 8 = 7 := (flush0_2 t).mp hf
  obtain ⟨-, -, -, -, -, -, e0, e1⟩ := idx_facts t
  show (cfg0.win 2).cut (grid0.coords t) ((dat0 V c).after 2 t) = _
  rw [after0_2]
  funext j
  obtain ⟨b, p, rfl⟩ : ∃ (b : Fin 8) (p : Fin 512), j = ix2 b p := ⟨j 0, j 1, eq_ix2 j⟩
  show outsAt0 V c t.val t.isLt (ix2 b p) = result V c (((cfg0.win 2).blk t).view.emb (ix2 b p))
  rw [inv V c t.val t.isLt b p, h7, runmin_eight]
  have he : ((cfg0.win 2).blk t).view.emb (ix2 b p) = ix2 b (qrow t.val p) := funext fun a => Fin.ext (by
    match a with
    | ⟨0, _⟩ => show win0_2.index t (0 : Fin 2) * 8 + 1 * b.val = b.val; omega
    | ⟨1, _⟩ => show win0_2.index t (1 : Fin 2) * 512 + 1 * p.val = 512 * (t.val / 8 % 8) + p.val; omega)
  rw [he]
  rfl

/-- An index of the result array is in a point's block iff each coordinate is in the block's range on its axis. -/
theorem mem_blk (t : Fin cfg0.N) (i : S8x4096.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v0).slice (win0_2.rect t)).set ↔ _
  rw [View.set_slice_whole, Rect.mem_set_unit]
  exact Iff.rfl

/-- Every index of the result array is in the block some point writes back: that of the last key tile of its query tile. -/
theorem cover (i : S8x4096.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hN : cfg0.N = 64 := N_0
  let t : Fin cfg0.N := ⟨8 * ((i 1).val / 512) + 7, by rw [hN]; omega⟩
  have ht : t.val = 8 * ((i 1).val / 512) + 7 := rfl
  obtain ⟨-, -, -, -, -, -, e0, e1⟩ := idx_facts t
  refine ⟨t, (flush0_2 t).mpr (by rw [ht]; omega), ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 512 ≤ (i 1).val ∧ (i 1).val < win0_2.index t (1 : Fin 2) * 512 + 512; omega

/-- The result array after the region. -/
theorem final (c : Dev nD) : (dat0 V c).arrAt 2 cfg0.N = result V c :=
  (dat0 V c).arrAt_eq_of_cover 2 (result V c) (flushed_eq V c) cover

/-- The same, over whatever the two argument arrays are known to be when the region is entered. -/
theorem final_of (c : Dev nD) (X Y : Vec Ideal S8x4096x3 .f32) (hq : qarr V c = X) (hk : karr V c = Y) :
    (dat0 V c).arrAt 2 cfg0.N = fun i => nearest X Y (i 0) (i 1) := by
  subst hq hk
  exact final V c

end Cert.KernelIdeal.Region0

end
-- ==== Proof.Region1.lean ====
/-
  Region 1 of the program: the nearest-neighbour pass whose queries are `main_arg1` and whose keys are `main_arg0`,
  over a grid of 8 query tiles by 8 key tiles of 512 points, the key tile moving fastest.

  At a point `t` the query tile is `t / 8` and the key tile `t % 8`. The output block (one per query tile) is reset to
  `+∞` at the first key tile and then holds, after key tile `j`, for query `p` of the tile the least squared distance to
  the first `512 (j + 1)` keys (`inv`: by induction on the point, the step being the payload read at an index and
  `Hausdorff.runmin_step`). It is written back after the last key tile, when that is the least squared distance to all
  4096 keys; the eight written blocks tile the result array, which therefore ends holding, at `(b, n)`,
  `Hausdorff.nearest` of the two argument arrays as the region finds them (`final`).
-/
import proofs.«147394_j61194694033712_1_alg».proof.Proof.Gen.KernelIdeal.Frame
import proofs.«147394_j61194694033712_1_alg».proof.Proof.NnBody
import Idealize.ShloMosaic.Lib.Pipeline.Value
import Idealize.ShloMosaic.Lib.Tactic

set_option maxRecDepth 16384

noncomputable section

namespace Cert.KernelIdeal.Region1

open Cert.KernelIdeal Cert.KernelIdeal.Gen Cert.KernelIdeal.NnBody
open Idealize.ShloMosaic Idealize.ShloMosaic.TcCoe Idealize.SL.Sem Idealize.ShloMosaic.ValueIdx
open Idealize.ShloMosaic.Pipeline (Dat)
open Hausdorff LibOuterMinMax

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves in the output block -/

section Pieces
variable {F : FTy → Type} [FloatOps F]

/-- Away from the first key tile the body leaves the payload of the two input blocks over the block's running contents. -/
theorem out_B (c : Dev nD) (i : grid1.Coords) (a2 : Memref sig .tc .vmem S8x512x3 .f32) (h2 : a2.IsWhole)
    (a3 : Memref sig .tc .vmem S8x512x3 .f32) (h3 : a3.IsWhole) (a4 : Memref sig .tc .vmem S8x512 .f32) (h4 : a4.IsWhole)
    (hc : ¬cond1_0 i) (x0 x1 : Vec F S8x512x3 .f32) (xo : Vec F S8x512 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz2]
  simp only [View.readAt_eq_ld, h2.read_unread, h3.read_unread, h4.read_unread, View.ld_unit_zero (S := S8x512x3) hz3,
    View.ld_unit_zero (S := S8x512) hz2]

/-- At the first key tile the body first stores the `+∞` block, reads it back, and leaves the payload over it. -/
theorem out_A (c : Dev nD) (i : grid1.Coords) (a2 : Memref sig .tc .vmem S8x512x3 .f32) (h2 : a2.IsWhole)
    (a3 : Memref sig .tc .vmem S8x512x3 .f32) (h3 : a3.IsWhole) (a4 : Memref sig .tc .vmem S8x512 .f32) (h4 : a4.IsWhole)
    (hc : cond1_0 i) (x0 x1 : Vec F S8x512x3 .f32) :
    out1_A_2 c i a2 h2 a3 h3 a4 h4 hc x0 x1 = k1_pay2 x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S8x512) hz2, View.readCov_unit_zero (S := S8x512) _ hz2]
  simp only [View.readAt_eq_ld, h2.read_unread, h3.read_unread, View.ld_unit_zero (S := S8x512x3) hz3,
    View.ld_unit_zero (S := S8x512) hz2]

end Pieces

/-! ## The blocks, read through their windows -/

variable (V : (c : Dev nD) → (b : Ref sig .tc) → Buf (Elt Ideal) ((c : Thread nD τ).loc b))

/-- The query and key blocks at a point and the two arrays they are cut from, at their literal types. -/
abbrev qblk (c : Dev nD) (t : Fin cfg1.N) : Vec Ideal S8x512x3 .f32 := iblk1 V c 0 t
abbrev kblk (c : Dev nD) (t : Fin cfg1.N) : Vec Ideal S8x512x3 .f32 := iblk1 V c 1 t
abbrev qarr (c : Dev nD) : Vec Ideal S8x4096x3 .f32 := V c main_arg1
abbrev karr (c : Dev nD) : Vec Ideal S8x4096x3 .f32 := V c main_arg0

/-- Row `p` of the query tile of point `n`, and row `q` of its key tile, as rows of the whole arrays. -/
def qrow (n : Nat) (p : Fin 512) : Fin 4096 := ⟨512 * (n / 8 % 8) + p.val, by have := p.isLt; omega⟩
def krow (n : Nat) (q : Fin 512) : Fin 4096 := ⟨512 * (n % 8) + q.val, by have := q.isLt; omega⟩

/-- The printed index maps over the grid: the query window and the output window sit at block `t / 8` of the point
    axis, the key window at block `t % 8`, and at block 0 of every other axis. -/
theorem idx_facts : ∀ t : Fin cfg1.N,
    win1_0.index t (0 : Fin 3) = 0 ∧ win1_0.index t (1 : Fin 3) = t.val / 8 % 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 2) = 0 ∧ win1_2.index t (1 : Fin 2) = t.val / 8 % 8 :=
  (by decide +kernel : ∀ t : Fin grid1.N, _)

theorem qblk_apply (c : Dev nD) (t : Fin cfg1.N) (b : Fin 8) (p : Fin 512) (k : Fin 3) :
    qblk V c t (ix3 b p k) = qarr V c (ix3 b (qrow t.val p) k) := by
  obtain ⟨e0, e1, e2, -⟩ := idx_facts t
  show V c main_arg1 (((cfg1.win 0).blk t).view.emb (ix3 b p k)) = V c main_arg1 (ix3 b (qrow t.val p) k)
  refine congrArg _ (funext fun a => Fin.ext ?_)
  match a with
  | ⟨0, _⟩ => show win1_0.index t (0 : Fin 3) * 8 + 1 * b.val = b.val; omega
  | ⟨1, _⟩ => show win1_0.index t (1 : Fin 3) * 512 + 1 * p.val = 512 * (t.val / 8 % 8) + p.val; omega
  | ⟨2, _⟩ => show win1_0.index t (2 : Fin 3) * 3 + 1 * k.val = k.val; omega

theorem kblk_apply (c : Dev nD) (t : Fin cfg1.N) (b : Fin 8) (q : Fin 512) (k : Fin 3) :
    kblk V c t (ix3 b q k) = karr V c (ix3 b (krow t.val q) k) := by
  obtain ⟨-, -, -, e0, e1, e2, -⟩ := idx_facts t
  show V c main_arg0 (((cfg1.win 1).blk t).view.emb (ix3 b q k)) = V c main_arg0 (ix3 b (krow t.val q) k)
  refine congrArg _ (funext fun a => Fin.ext ?_)
  match a with
  | ⟨0, _⟩ => show win1_1.index t (0 : Fin 3) * 8 + 1 * b.val = b.val; omega
  | ⟨1, _⟩ => show win1_1.index t (1 : Fin 3) * 512 + 1 * q.val = 512 * (t.val % 8) + q.val; omega
  | ⟨2, _⟩ => show win1_1.index t (2 : Fin 3) * 3 + 1 * k.val = k.val; omega

/-- The squared distance between a row of the query block and a row of the key block is the squared distance between
    the rows of the arrays they are. -/
theorem dist_blk (c : Dev nD) (t : Fin cfg1.N) (b : Fin 8) (p q : Fin 512) :
    Hausdorff.dist (qblk V c t) (kblk V c t) b p q = Hausdorff.dist (qarr V c) (karr V c) b (qrow t.val p) (krow t.val q) := by
  unfold Hausdorff.dist Hausdorff.sq Hausdorff.dot
  simp only [qblk_apply, kblk_apply]

/-! ## The running minimum -/

/-- The squared distances from query row `r` of batch `b` to every key. -/
abbrev toKeys (c : Dev nD) (b : Fin 8) (r : Fin 4096) : Fin 4096 → EReal := fun m => Hausdorff.dist (qarr V c) (karr V c) b r m

/-- The reset block holds `+∞`. -/
theorem pay1_apply (j : S8x512.Idx) : k1_pay1 (F := Ideal) j = (⊤ : EReal) := ofBits_posInf

/-- One point's step at `(b, p)`: the payload over a running minimum `prev` takes in the point's key tile. -/
theorem step_apply (c : Dev nD) (t : Fin cfg1.N) (prev : Vec Ideal S8x512 .f32) (b : Fin 8) (p : Fin 512) :
    k1_pay2 (F := Ideal) (qblk V c t) (kblk V c t) prev (ix2 b p)
      = min (prev (ix2 b p)) (tilemin (toKeys V c b (qrow t.val p)) t.val) := by
  refine (pay2_apply_1 (qblk V c t) (kblk V c t) prev b p).trans ?_
  refine congrArg (min _) (Finset.inf_congr rfl fun q _ => ?_)
  exact dist_blk V c t b p q

/-- After the body at point `n` the output block holds, at `(b, p)`, the least squared distance from the query row to
    the keys of the key tiles up to the point's own. -/
theorem inv (c : Dev nD) : ∀ (n : Nat) (h : n < cfg1.N) (b : Fin 8) (p : Fin 512),
    outsAt1 V c n h (ix2 b p) = runmin (toKeys V c b (qrow n p)) (n % 8 + 1)
  | 0, h, b, p => by
    rw [outsAt1_A V c ⟨0, h⟩ rfl, out_A]
    refine (step_apply V c ⟨0, h⟩ (k1_pay1 (F := Ideal)) b p).trans ?_
    rw [pay1_apply, runmin_step, Nat.zero_mod, runmin_zero]
  | n + 1, h, b, p => by
    by_cases h0 : (n + 1) % 8 = 0
    · rw [outsAt1_A V c ⟨n + 1, h⟩ h0, out_A]
      refine (step_apply V c ⟨n + 1, h⟩ (k1_pay1 (F := Ideal)) b p).trans ?_
      rw [pay1_apply, runmin_step, h0, runmin_zero]
    · rw [outsAt1_B V c ⟨n + 1, h⟩ h0, out_B]
      refine (step_apply V c ⟨n + 1, h⟩ (outsAt1 V c n (Nat.lt_of_succ_lt h)) b p).trans ?_
      rw [inv c n (Nat.lt_of_succ_lt h) b p]
      have hq : qrow n p = qrow (n + 1) p := Fin.ext (by show 512 * (n / 8 % 8) + p.val = 512 * ((n + 1) / 8 % 8) + p.val; omega)
      have hj : n % 8 + 1 = (n + 1) % 8 := by omega
      rw [hq, runmin_step _ (n + 1), hj]

/-! ## The result array -/

/-- What the result array ends holding: at `(b, n)` the least squared distance from query `n` to the keys. -/
abbrev result (c : Dev nD) : Vec Ideal S8x4096 .f32 := fun i => nearest (qarr V c) (karr V c) (i 0) (i 1)

/-- What a point writes back (it does so after the last key tile) is its block of `result`. -/
theorem flushed_eq (c : Dev nD) (t : Fin cfg1.N) (hf : (cfg1.win 2).flush t = true) :
    (dat1 V c).flushed 2 t = ((cfg1.win 2).blk t).view.read (Elt Ideal) (result V c) := by
  have h7 : t.val % 8 = 7 := (flush1_2 t).mp hf
  obtain ⟨-, -, -, -, -, -, e0, e1⟩ := idx_facts t
  show (cfg1.win 2).cut (grid1.coords t) ((dat1 V c).after 2 t) = _
  rw [after1_2]
  funext j
  obtain ⟨b, p, rfl⟩ : ∃ (b : Fin 8) (p : Fin 512), j = ix2 b p := ⟨j 0, j 1, eq_ix2 j⟩
  show outsAt1 V c t.val t.isLt (ix2 b p) = result V c (((cfg1.win 2).blk t).view.emb (ix2 b p))
  rw [inv V c t.val t.isLt b p, h7, runmin_eight]
  have he : ((cfg1.win 2).blk t).view.emb (ix2 b p) = ix2 b (qrow t.val p) := funext fun a => Fin.ext (by
    match a with
    | ⟨0, _⟩ => show win1_2.index t (0 : Fin 2) * 8 + 1 * b.val = b.val; omega
    | ⟨1, _⟩ => show win1_2.index t (1 : Fin 2) * 512 + 1 * p.val = 512 * (t.val / 8 % 8) + p.val; omega)
  rw [he]
  rfl

/-- An index of the result array is in a point's block iff each coordinate is in the block's range on its axis. -/
theorem mem_blk (t : Fin cfg1.N) (i : S8x4096.Idx) :
    i ∈ ((cfg1.win 2).blk t).view.set ↔ ∀ a : Fin 2, win1_2.index t a * S8x512.size a ≤ (i a).val ∧ (i a).val < win1_2.index t a * S8x512.size a + S8x512.size a := by
  show i ∈ ((View.whole main_v1).slice (win1_2.rect t)).set ↔ _
  rw [View.set_slice_whole, Rect.mem_set_unit]
  exact Iff.rfl

/-- Every index of the result array is in the block some point writes back: that of the last key tile of its query tile. -/
theorem cover (i : S8x4096.Idx) : ∃ t : Fin cfg1.N, (cfg1.win 2).flush t = true ∧ i ∈ ((cfg1.win 2).blk t).view.set := by
  have hi0 : (i 0).val < 8 := (i 0).isLt
  have hi1 : (i 1).val < 4096 := (i 1).isLt
  have hN : cfg1.N = 64 := N_1
  let t : Fin cfg1.N := ⟨8 * ((i 1).val / 512) + 7, by rw [hN]; omega⟩
  have ht : t.val = 8 * ((i 1).val / 512) + 7 := rfl
  obtain ⟨-, -, -, -, -, -, e0, e1⟩ := idx_facts t
  refine ⟨t, (flush1_2 t).mpr (by rw [ht]; omega), ?_⟩
  rw [mem_blk]
  intro a
  match a with
  | ⟨0, _⟩ => show win1_2.index t (0 : Fin 2) * 8 ≤ (i 0).val ∧ (i 0).val < win1_2.index t (0 : Fin 2) * 8 + 8; omega
  | ⟨1, _⟩ => show win1_2.index t (1 : Fin 2) * 512 ≤ (i 1).val ∧ (i 1).val < win1_2.index t (1 : Fin 2) * 512 + 512; omega

/-- The result array after the region. -/
theorem final (c : Dev nD) : (dat1 V c).arrAt 2 cfg1.N = result V c :=
  (dat1 V c).arrAt_eq_of_cover 2 (result V c) (flushed_eq V c) cover

/-- The same, over whatever the two argument arrays are known to be when the region is entered. -/
theorem final_of (c : Dev nD) (X Y : Vec Ideal S8x4096x3 .f32) (hq : qarr V c = X) (hk : karr V c = Y) :
    (dat1 V c).arrAt 2 cfg1.N = fun i => nearest X Y (i 0) (i 1) := by
  subst hq hk
  exact final V c

end Cert.KernelIdeal.Region1

end
-- ==== Proof.Region2.lean ====
/-
  Region 2 of the program: the closing pass. It holds the two arrays of nearest-neighbour distances whole (one grid
  point, each window's block the whole array), takes each batch's maximum over the 4096 entries of either array,
  the larger of the two, and the sum of that over the 8 batches, which it leaves in the one entry of a `[1, 1]` array.
-/
import proofs.«147394_j61194694033712_1_alg».proof.Proof.Gen.KernelIdeal.Frame
import proofs.«147394_j61194694033712_1_alg».proof.Proof.LibOuterMinMax
import proofs.«147394_j61194694033712_1_alg».proof.Proof.Spec
import Idealize.ShloMosaic.Lib.Pipeline.Value
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)
open LibOuterMinMax Hausdorff

theorem hz2 : (![0, 0] : Fin 2 → Nat) = fun _ => 0 := funext fun a => by fin_cases a <;> rfl

/-! ## The payload at its one index -/

/-- Maximising out the point axis of an `[8, 4096]` array at batch `b`: point `n` sits at `(b, n)`. -/
theorem lift_pt (h : S8x4096.Reduces [1] S8) (b : Fin 8) (n : Fin 4096) : h.lift (ix1 b) n = ix2 b n :=
  funext fun a => Fin.ext (by match a with | ⟨0, _⟩ => rfl | ⟨1, _⟩ => rfl)

/-- Summing out the batch axis of an `[8, 1]` column: batch `b` sits at `(b, u)`. -/
theorem lift_batch (h : S8x1.Reduces [0] S1) (u : Fin 1) (b : Fin 8) : h.lift (ix1 u) b = ix2 b u :=
  funext fun a => Fin.ext (by match a with | ⟨0, _⟩ => rfl | ⟨1, _⟩ => rfl)

/-- A row's maximum (from `-∞`), kept as a column entry. -/
theorem rowmax_apply (v : Vec Ideal S8x4096 .f32) (h0 : S8x4096.ShapeCasts S8x4096) (h : S8x4096.Reduces [1] S8)
    (hφ : FKind.Formats .f32) (hacc : (0xFF800000#32 : BitVec 32) = FKind.maximumf.neutral .f32 hφ)
    (h1 : S8.ShapeCasts S8x1) (b : Fin 8) (u : Fin 1) :
    shapeCast S8x1 (multiReduction (F := Ideal) .maximumf [1] S8 (shapeCast S8x4096 v h0) 0xFF800000#32 h hφ hacc) h1 (ix2 b u)
      = Finset.univ.sup fun n : Fin 4096 => v (ix2 b n) := by
  rw [castCol_apply, shapeCast_self]
  refine (multiReduction_maximumf_sup v h hφ hacc (ix1 b)).trans ?_
  exact Finset.sup_congr rfl fun (n : Fin 4096) _ => congrArg v (lift_pt h b n)

theorem pay1_apply (v0 v4 : Vec Ideal S8x4096 .f32) (u w : Fin 1) :
    k2_pay1 (F := Ideal) v0 v4 (ix2 u w) = farthest v0 v4 := by
  unfold k2_pay1
  dsimp only
  rw [castCol_apply]
  refine (Ideal.multiReduction_add_single _ _ _ _ _ (ix1 u)).trans ?_
  unfold Hausdorff.farthest
  refine Finset.sum_congr rfl fun (b : Fin 8) _ => ?_
  rw [lift_batch _ u b]
  show max (shapeCast S8x1 _ _ (ix2 b u)) (shapeCast S8x1 _ _ (ix2 b u)) = _
  exact congrArg₂ max (rowmax_apply v0 _ _ _ _ _ b u) (rowmax_apply v4 _ _ _ _ _ b u)

/-! ## The blocks and the result array -/

variable (V : (c : Dev nD) → (b : Ref sig .tc) → Buf (Elt Ideal) ((c : Thread nD τ).loc b))

abbrev d1blk (c : Dev nD) (t : Fin cfg2.N) : Vec Ideal S8x4096 .f32 := iblk2 V c 0 t
abbrev d2blk (c : Dev nD) (t : Fin cfg2.N) : Vec Ideal S8x4096 .f32 := iblk2 V c 1 t
abbrev d1arr (c : Dev nD) : Vec Ideal S8x4096 .f32 := V c main_v0
abbrev d2arr (c : Dev nD) : Vec Ideal S8x4096 .f32 := V c main_v1

/-- Every window of the one grid point sits at block 0 of both axes. -/
theorem idx_facts : ∀ t : Fin cfg2.N,
    win2_0.index t (0 : Fin 2) = 0 ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Each input block is its whole array. -/
theorem d1blk_eq (c : Dev nD) (t : Fin cfg2.N) : d1blk V c t = d1arr V c := by
  obtain ⟨e0, e1, -⟩ := idx_facts t
  funext j
  show V c main_v0 (((cfg2.win 0).blk t).view.emb j) = V c main_v0 j
  refine congrArg _ (funext fun a => Fin.ext ?_)
  match a with
  | ⟨0, _⟩ => show win2_0.index t (0 : Fin 2) * 8 + 1 * (j 0).val = (j 0).val; omega
  | ⟨1, _⟩ => show win2_0.index t (1 : Fin 2) * 4096 + 1 * (j 1).val = (j 1).val; omega

theorem d2blk_eq (c : Dev nD) (t : Fin cfg2.N) : d2blk V c t = d2arr V c := by
  obtain ⟨-, -, e0, e1, -⟩ := idx_facts t
  funext j
  show V c main_v1 (((cfg2.win 1).blk t).view.emb j) = V c main_v1 j
  refine congrArg _ (funext fun a => Fin.ext ?_)
  match a with
  | ⟨0, _⟩ => show win2_1.index t (0 : Fin 2) * 8 + 1 * (j 0).val = (j 0).val; omega
  | ⟨1, _⟩ => show win2_1.index t (1 : Fin 2) * 4096 + 1 * (j 1).val = (j 1).val; omega

/-- What the result array ends holding: the farthest-nearest value of the two arrays as the region finds them. -/
abbrev result (c : Dev nD) : Vec Ideal S1x1 .f32 := fun _ => farthest (d1arr V c) (d2arr V c)

/-- What the one point writes back is (its block, the whole, of) `result`. -/
theorem flushed_eq (c : Dev nD) (t : Fin cfg2.N) (hf : (cfg2.win 2).flush t = true) :
    (dat2 V c).flushed 2 t = ((cfg2.win 2).blk t).view.read (Elt Ideal) (result V c) := by
  show (cfg2.win 2).cut (grid2.coords t) ((dat2 V c).after 2 t) = _
  rw [after2_2]
  unfold out2_2
  rw [View.canon_unit_zero hz2]
  simp only [View.ld_unit_zero (S := S8x4096) hz2]
  funext j
  obtain ⟨u, w, rfl⟩ : ∃ (u w : Fin 1), j = ix2 u w := ⟨j 0, j 1, eq_ix2 j⟩
  show k2_pay1 (F := Ideal) (d1blk V c t) (d2blk V c t) (ix2 u w) = farthest (d1arr V c) (d2arr V c)
  rw [d1blk_eq, d2blk_eq]
  exact pay1_apply (d1arr V c) (d2arr V c) u w

/-- The one entry of the result array is in the block the one point writes back. -/
theorem cover (i : S1x1.Idx) : ∃ t : Fin cfg2.N, (cfg2.win 2).flush t = true ∧ i ∈ ((cfg2.win 2).blk t).view.set := by
  have hi0 : (i 0).val < 1 := (i 0).isLt
  have hi1 : (i 1).val < 1 := (i 1).isLt
  obtain ⟨-, -, -, -, e0, e1⟩ := idx_facts t2_0
  refine ⟨t2_0, flush2_2 t2_0, ?_⟩
  show i ∈ ((View.whole main_v2).slice (win2_2.rect t2_0)).set
  rw [View.set_slice_whole, Rect.mem_set_unit]
  intro a
  match a with
  | ⟨0, _⟩ => show win2_2.index t2_0 (0 : Fin 2) * 1 ≤ (i 0).val ∧ (i 0).val < win2_2.index t2_0 (0 : Fin 2) * 1 + 1; omega
  | ⟨1, _⟩ => show win2_2.index t2_0 (1 : Fin 2) * 1 ≤ (i 1).val ∧ (i 1).val < win2_2.index t2_0 (1 : Fin 2) * 1 + 1; omega

/-- The result array after the region. -/
theorem final (c : Dev nD) : (dat2 V c).arrAt 2 cfg2.N = result V c :=
  (dat2 V c).arrAt_eq_of_cover 2 (result V c) (flushed_eq V c) cover

end Cert.KernelIdeal.Region2

end
-- ==== Proof.KernelValue.lean ====
/-
  The idealized kernel program's result, read at the extended reals, is `Hausdorff.value` of its two arguments.

  The buffer contents at the program's boundaries are a fold: region 0 leaves in its result array the nearest distances
  from the first cloud to the second; region 1, which finds the two argument arrays unchanged and takes them in the
  other order, the nearest distances from the second cloud to the first; region 2 finds both arrays as left and leaves
  their farthest-nearest value in a `[1, 1]` array, which the closing host reshape reads as a scalar. By the symmetry of
  the squared distance the second array is the reference's minimum along the query axis, so the scalar is the value.
-/
import proofs.«147394_j61194694033712_1_alg».proof.Proof.KernelRun
import proofs.«147394_j61194694033712_1_alg».proof.Proof.Region0
import proofs.«147394_j61194694033712_1_alg».proof.Proof.Region1
import proofs.«147394_j61194694033712_1_alg».proof.Proof.Region2
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.SL.Sem Idealize.ShloMosaic.ValueIdx
open Idealize.ShloMosaic.Pipeline (Dat)
open Hausdorff

variable (m : (ℓ : Loc nD τ sig) → Buf (Elt Ideal) ℓ) (ρ : Dev nD → PrngReg)

/-- Region 1 finds the argument arrays as launched: region 0 only reads them. -/
theorem V1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_arg1 (c : Dev nD) : V1 m ρ c main_arg1 = m ((c : Thread nD τ).loc main_arg1) :=
  (W1_arr m ρ c 1).trans (((dat0 (V0 m ρ) c).arrAt_in 1 rfl _).trans (A_eq0 (V0 m ρ) c 1))

/-- After region 0 its result array holds the nearest distances from the first cloud to the second. -/
theorem W1_v0 (c : Dev nD) : W1 m ρ c (Proc.devRef .tc main_v0)
    = fun i => nearest (m ((c : Thread nD τ).loc main_arg0)) (m ((c : Thread nD τ).loc main_arg1)) (i 0) (i 1) :=
  (W1_arr m ρ c 2).trans (Region0.final_of (V0 m ρ) c _ _ rfl rfl)

/-- Region 1 does not touch region 0's result array. -/
theorem W2_v0 (c : Dev nD) : W2 m ρ c (Proc.devRef .tc main_v0) = W1 m ρ c (Proc.devRef .tc main_v0) :=
  W2_of_ne m ρ c main_v0 (by decide)

/-- Region 1's result array after the region holds the nearest distances from the second cloud to the first. -/
theorem final1 (c : Dev nD) : (dat1 (V1 m ρ) c).arrAt 2 cfg1.N
    = fun i => nearest (m ((c : Thread nD τ).loc main_arg1)) (m ((c : Thread nD τ).loc main_arg0)) (i 0) (i 1) :=
  Region1.final_of (V1 m ρ) c (m ((c : Thread nD τ).loc main_arg1)) (m ((c : Thread nD τ).loc main_arg0))
    (V1_arg1 m ρ c) (V1_arg0 m ρ c)

/-- So that is what the array holds at the next boundary. -/
theorem W2_v1 (c : Dev nD) : W2 m ρ c (Proc.devRef .tc main_v1)
    = fun i => nearest (m ((c : Thread nD τ).loc main_arg1)) (m ((c : Thread nD τ).loc main_arg0)) (i 0) (i 1) :=
  (W2_arr m ρ c 2).trans (final1 m ρ c)

/-- After region 2 its result array holds the farthest-nearest value of the two arrays it found. -/
theorem W3_v2 (c : Dev nD) : W3 m ρ c (Proc.devRef .tc main_v2)
    = fun _ => farthest (W2 m ρ c (Proc.devRef .tc main_v0)) (W2 m ρ c (Proc.devRef .tc main_v1)) :=
  (W3_arr m ρ c 2).trans (Region2.final (V2 m ρ) c)

/-- The closing host reshape reads the `[1, 1]` array as a scalar. -/
theorem W4_v3 (c : Dev nD) : W4 m ρ c (Proc.devRef .tc main_v3)
    = shapeCast S_ (W3 m ρ c (Proc.devRef .tc main_v2)) shapeCasts_S1x1_S_ := by
  show StableHlo.after hostOps3 (W3 m ρ c) (Proc.devRef .tc main_v3) = _
  after_results
  rfl

/-- The result buffer at the last boundary is the value of the two arguments. -/
theorem result_eq (c : Dev nD) : W4 m ρ c (Proc.devRef .tc main_v3)
    = fun _ => value (m ((c : Thread nD τ).loc main_arg0)) (m ((c : Thread nD τ).loc main_arg1)) := by
  rw [W4_v3, W3_v2, W2_v0, W1_v0, W2_v1]
  funext j
  exact farthest_nearest _ _

/-- The idealized kernel's run with its result named: the value of the arguments, which end unchanged. -/
theorem run : θ_run defs (onTc (τ := τ) (main (F := Ideal))) ⟨m, fun _ => 0, ρ⟩ (fun r => ∀ c : Dev nD,
      r.2.mem ((c.tc : Thread nD τ).loc main_v3)
        = (fun _ => value (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m ρ c), (h c).2⟩) (run_named (F := Ideal) m ρ)

end Cert.KernelIdeal.RunValue

end
-- ==== Proof.RefValue.lean ====
/-
  The reference program's result, read at the extended reals, is `Hausdorff.value` of its two arguments.

  Its operations in order: the two arrays of squared norms (sums over the three coordinates from a zero initial
  value), the batched matrix of inner products, the tensor `(|x|² + |y|²) - 2 · (x · y)` over all pairs, its minimum
  along the key axis and along the query axis (each from `+∞`), the maximum of each of those along the remaining point
  axis (from `-∞`), the larger of the two per batch, and the sum over the batches (from zero).
-/
import proofs.«147394_j61194694033712_1_alg».proof.Proof.Gen.ReferenceIdeal.Read
import proofs.«147394_j61194694033712_1_alg».proof.Proof.Spec
import proofs.«147394_j61194694033712_1_alg».proof.Proof.LibOuterMinMax
import Idealize.ShloMosaic.Lib.ValueIdxRank1

noncomputable section

namespace Cert.ReferenceIdeal.RefValue

open Cert.ReferenceIdeal Cert.ReferenceIdeal.Gen Cert.ReferenceIdeal.Read
open Idealize.ShloMosaic Idealize.ShloMosaic.ValueIdx Hausdorff LibOuterMinMax

variable (x0 x1 : (⟨S8x4096x3, .f32⟩ : BufTy).Contents (Elt Ideal))

/-! ## The composed index maps, by coordinates -/

theorem idx_sqx (b : Fin 8) (n m : Fin 4096) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)
theorem idx_sqy (b : Fin 8) (n m : Fin 4096) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)
theorem idx_dotl (b : Fin 8) (n m : Fin 4096) (k : Fin 3) : lidx_main_v4 (ix3 b n m) k = ix3 b n k :=
  funext fun a => Fin.ext (by match a with | ⟨0, _⟩ => rfl | ⟨1, _⟩ => rfl | ⟨2, _⟩ => rfl)
theorem idx_dotr (b : Fin 8) (n m : Fin 4096) (k : Fin 3) : ridx_main_v4 (ix3 b n m) k = ix3 b m k :=
  funext fun a => Fin.ext (by match a with | ⟨0, _⟩ => rfl | ⟨1, _⟩ => rfl | ⟨2, _⟩ => rfl)

/-! ## The tensor of squared distances -/

/-- The reference's tensor at `(b, n, m)` is the squared distance between point `n` of the first cloud and point `m`
    of the second. -/
theorem v12_apply (b : Fin 8) (n m : Fin 4096) :
    val_main_v12 (F := Ideal) x0 x1 (ix3 b n m) = Hausdorff.dist x0 x1 b n m := by
  rw [val_main_v12_apply, val_main_v9_apply, val_main_v11_apply, val_main_v7_apply, val_main_v5_apply, val_main_v1_apply,
    val_main_v8_apply, val_main_v6_apply, val_main_v3_apply, val_main_v10_apply, val_main_cst_1_apply, val_main_v4_apply]
  simp only [val_main_cst_apply, val_main_cst_0_apply, val_main_v0_apply, val_main_v2_apply, idx_sqx, idx_sqy, idx_dotl,
    idx_dotr, Ideal.ofBits_def, Ideal.addf_def, Ideal.subf_def, Ideal.mulf_def, Ideal.ofBits_zero_f32, zero_add]
  rfl

/-! ## The two directed nearest-neighbour arrays -/

/-- Minimising out the key axis at `(b, n)`: key `m` sits at `(b, n, m)`. -/
theorem lift_key (h : S8x4096x4096.Reduces [2] S8x4096) (b : Fin 8) (n m : Fin 4096) : h.lift (ix2 b n) m = ix3 b n m :=
  funext fun a => Fin.ext (by match a with | ⟨0, _⟩ => rfl | ⟨1, _⟩ => rfl | ⟨2, _⟩ => rfl)

/-- Minimising out the query axis at `(b, m)`: query `n` sits at `(b, n, m)`. -/
theorem lift_query (h : S8x4096x4096.Reduces [1] S8x4096) (b : Fin 8) (m n : Fin 4096) : h.lift (ix2 b m) n = ix3 b n m :=
  funext fun a => Fin.ext (by match a with | ⟨0, _⟩ => rfl | ⟨1, _⟩ => rfl | ⟨2, _⟩ => rfl)

theorem v13_apply (b : Fin 8) (n : Fin 4096) :
    val_main_v13 (F := Ideal) x0 x1 (ix2 b n) = Finset.univ.inf fun m : Fin 4096 => Hausdorff.dist x0 x1 b n m := by
  unfold val_main_v13
  have h : S8x4096x4096.Reduces [2] S8x4096 := by decide
  refine (hostReduce_minimumf_inf _ _ reducesTo_S8x4096x4096_S8x4096_d2 h h_S_ ofBits_posInf (ix2 b n)).trans ?_
  refine Finset.inf_congr rfl fun (m : Fin 4096) _ => ?_
  rw [lift_key h b n m]
  exact v12_apply x0 x1 b n m

theorem v14_apply (b : Fin 8) (m : Fin 4096) :
    val_main_v14 (F := Ideal) x0 x1 (ix2 b m) = Finset.univ.inf fun n : Fin 4096 => Hausdorff.dist x0 x1 b n m := by
  unfold val_main_v14
  have h : S8x4096x4096.Reduces [1] S8x4096 := by decide
  refine (hostReduce_minimumf_inf _ _ reducesTo_S8x4096x4096_S8x4096_d1 h h_S_ ofBits_posInf (ix2 b m)).trans ?_
  refine Finset.inf_congr rfl fun (n : Fin 4096) _ => ?_
  rw [lift_query h b m n]
  exact v12_apply x0 x1 b n m

/-! ## Their maxima, and the sum over the batches -/

/-- Maximising out the point axis at batch `b`: point `n` sits at `(b, n)`. -/
theorem lift_pt (h : S8x4096.Reduces [1] S8) (b : Fin 8) (n : Fin 4096) : h.lift (ix1 b) n = ix2 b n :=
  funext fun a => Fin.ext (by match a with | ⟨0, _⟩ => rfl | ⟨1, _⟩ => rfl)

theorem v15_apply (b : Fin 8) :
    val_main_v15 (F := Ideal) x0 x1 (ix1 b) = Finset.univ.sup fun n : Fin 4096 => nearest x0 x1 b n := by
  unfold val_main_v15
  have h : S8x4096.Reduces [1] S8 := by decide
  refine (hostReduce_maximumf_sup _ _ reducesTo_S8x4096_S8_d1 h h_S_ ofBits_negInf (ix1 b)).trans ?_
  refine Finset.sup_congr rfl fun (n : Fin 4096) _ => ?_
  rw [lift_pt h b n]
  exact v13_apply x0 x1 b n

theorem v16_apply (b : Fin 8) :
    val_main_v16 (F := Ideal) x0 x1 (ix1 b)
      = Finset.univ.sup fun m : Fin 4096 => Finset.univ.inf fun n : Fin 4096 => Hausdorff.dist x0 x1 b n m := by
  unfold val_main_v16
  have h : S8x4096.Reduces [1] S8 := by decide
  refine (hostReduce_maximumf_sup _ _ reducesTo_S8x4096_S8_d1 h h_S_ ofBits_negInf (ix1 b)).trans ?_
  refine Finset.sup_congr rfl fun (m : Fin 4096) _ => ?_
  rw [lift_pt h b m]
  exact v14_apply x0 x1 b m

/-- The reference's result is the value. -/
theorem result_eq : val_main_v18 (F := Ideal) x0 x1 = fun _ => value x0 x1 := by
  funext i
  rw [val_main_v18_apply, val_main_cst_6_apply]
  show Ideal.ofBits .f32 0x00000000#32 + _ = _
  rw [Ideal.ofBits_zero_f32, zero_add, ← Equiv.sum_comp (idxEquiv1 (n := 8)).symm]
  unfold value
  refine Finset.sum_congr rfl fun (b : Fin 8) _ => ?_
  show val_main_v17 (F := Ideal) x0 x1 (ix1 b) = _
  rw [val_main_v17_apply, Ideal.maximumf_def, v15_apply, v16_apply]

end Cert.ReferenceIdeal.RefValue

end
-- ==== Proof.lean ====
/-
  The certificate of the symmetric nearest-neighbour (Hausdorff-type) loss on two clouds of 4096 points in dimension 3,
  8 batches: the kernel program against the plain reference, over the extended reals.

  Both programs compute
      ∑_b max ( max_n min_m d(x[b,n], y[b,m]) , max_m min_n d(x[b,n], y[b,m]) ),   d(p, q) = (|p|² + |q|²) - 2 · (p · q).
  The reference forms the whole 4096 × 4096 tensor of squared distances and reduces it along either axis. The kernel
  program makes two passes of one tiled pass — queries the first cloud and keys the second, then the clouds swapped —,
  each keeping for a tile of 512 queries a running minimum over the key tiles, from +∞, and a closing pass that takes
  the maxima and the sum. Three facts join the two: a minimum carried tile by tile is the minimum over all points; the
  squared distance is symmetric under swapping the clouds (commutativity of + and · alone, so the finiteness of the
  inputs is never used); folds of min from +∞ and of max from -∞ are infima and suprema. The narrowing of the matrix
  product's operands to a shorter float format is the identity on extended reals.

  The frames of the two kernel programs are the generated ones; the reference's frame is its generated run with the
  result dropped; the kernel program is printed unchanged for reading at the extended reals, so nothing is to be
  preserved.
-/
import proofs.«147394_j61194694033712_1_alg».proof.Defs
import proofs.«147394_j61194694033712_1_alg».proof.Proof.Gen.Kernel
import proofs.«147394_j61194694033712_1_alg».proof.Proof.Gen.Kernel.Skeleton
import proofs.«147394_j61194694033712_1_alg».proof.Proof.Gen.Kernel.Launch
import proofs.«147394_j61194694033712_1_alg».proof.Proof.Gen.Kernel.Points
import proofs.«147394_j61194694033712_1_alg».proof.Proof.Gen.Kernel.Frame
import proofs.«147394_j61194694033712_1_alg».proof.Proof.Gen.KernelIdeal
import proofs.«147394_j61194694033712_1_alg».proof.Proof.Gen.KernelIdeal.Skeleton
import proofs.«147394_j61194694033712_1_alg».proof.Proof.Gen.KernelIdeal.Launch
import proofs.«147394_j61194694033712_1_alg».proof.Proof.Gen.KernelIdeal.Points
import proofs.«147394_j61194694033712_1_alg».proof.Proof.Gen.KernelIdeal.Frame
import proofs.«147394_j61194694033712_1_alg».proof.Proof.Gen.ReferenceIdeal
import proofs.«147394_j61194694033712_1_alg».proof.Proof.Gen.Pre_finite_inputs
import proofs.«147394_j61194694033712_1_alg».proof.Proof.Gen.ReferenceIdeal.Run
import proofs.«147394_j61194694033712_1_alg».proof.Proof.Gen.ReferenceIdeal.Read
import proofs.«147394_j61194694033712_1_alg».proof.Proof.KernelValue
import proofs.«147394_j61194694033712_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two clouds, the kernel program's result is the value of its clouds and the
    reference's the value of its own: one extended real. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
